-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  reducesTo_S8192x1_S_d0_1 : S8192x1.ReducesTo [0, 1] S_
  h_S_ : 0 < S_.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.KernelPieces.lean ====
/-
  What each case of the body leaves behind, as values of what it loaded.

  At a point that opens a row of the grid the body first stores the +∞ column into the accumulator, reads it back
  and stores the update over it: the accumulator ends at the update of the +∞ column.  At the other points the
  accumulator ends at the update of what the point before left.  At a point that closes a row of the grid the
  accumulator is also copied into the output block, which therefore holds the same column.
-/
import proofs.«106607_j84086869721403_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A point inside a row of the grid: the accumulator ends at the update of what it held. -/
theorem acc_mid (c : Dev nD) (i : grid0.Coords) (arg2 : Memref sig .tc .vmem S1024x256 .f32) (harg2 : arg2.IsWhole)
    (arg3 : Memref sig .tc .vmem S1024x256 .f32) (harg3 : arg3.IsWhole) (arg4 : Memref sig .tc .vmem S1024x1 .f32) (harg4 : arg4.IsWhole)
    (arg5 : Memref sig .tc .vmem S1024x1 .f32) (harg5 : arg5.IsWhole) (hc0 : ¬cond0_0 i) (hc1 : ¬cond0_1 i)
    (x0 : Vec F S1024x256 .f32) (x1 : Vec F S1024x256 .f32) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread,
    View.ld_unit_zero (S := S1024x256) hz, View.ld_unit_zero (S := S1024x1) hz]

/-- A point that opens a row of the grid: the accumulator ends at the update of the reset's column. -/
theorem acc_first (c : Dev nD) (i : grid0.Coords) (arg2 : Memref sig .tc .vmem S1024x256 .f32) (harg2 : arg2.IsWhole)
    (arg3 : Memref sig .tc .vmem S1024x256 .f32) (harg3 : arg3.IsWhole) (arg4 : Memref sig .tc .vmem S1024x1 .f32) (harg4 : arg4.IsWhole)
    (arg5 : Memref sig .tc .vmem S1024x1 .f32) (harg5 : arg5.IsWhole) (hc0 : cond0_0 i) (hc1 : ¬cond0_1 i)
    (x0 : Vec F S1024x256 .f32) (x1 : Vec F S1024x256 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread,
    View.ld_unit_zero (S := S1024x256) hz]

/-- A point that closes a row of the grid: the accumulator ends at the update of what it held, -/
theorem acc_last (c : Dev nD) (i : grid0.Coords) (arg2 : Memref sig .tc .vmem S1024x256 .f32) (harg2 : arg2.IsWhole)
    (arg3 : Memref sig .tc .vmem S1024x256 .f32) (harg3 : arg3.IsWhole) (arg4 : Memref sig .tc .vmem S1024x1 .f32) (harg4 : arg4.IsWhole)
    (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S1024x256) hz, View.ld_unit_zero (S := S1024x1) hz]

/-- and the output block holds that same column, copied from the accumulator. -/
theorem out_last (c : Dev nD) (i : grid0.Coords) (arg2 : Memref sig .tc .vmem S1024x256 .f32) (harg2 : arg2.IsWhole)
    (arg3 : Memref sig .tc .vmem S1024x256 .f32) (harg3 : arg3.IsWhole) (arg4 : Memref sig .tc .vmem S1024x1 .f32) (harg4 : arg4.IsWhole)
    (arg5 : Memref sig .tc .vmem S1024x1 .f32) (harg5 : arg5.IsWhole) (hc0 : ¬cond0_0 i) (hc1 : cond0_1 i)
    (x0 : Vec F S1024x256 .f32) (x1 : Vec F S1024x256 .f32) (xs0 : Vec F S1024x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S1024x256) hz, View.ld_unit_zero (S := S1024x1) hz, View.readCov_unit_zero (S := S1024x1) _ hz]

end Cert.KernelIdeal.Pieces

end
-- ==== Proof.LibMinFold.lean ====
/-
  Running minima over an initial segment of a finite index range.

  For a family g over Fin N and a starting value b, the minimum of b and of g over the indices below n is
  characterised by its lower bounds: z is below it exactly when z is below b and below every g c with c < n.
  From that: the segment below 0 gives b, a segment reaching N gives the minimum over the whole range, and a
  segment is extended by a block of B further indices by taking the minimum with that block's own minimum
  (started from the same b: taking b in twice changes nothing).  Stated for any linear order.
-/
import Mathlib.Data.Finset.Fold
import Mathlib.Data.Fintype.Basic
import Mathlib.Order.Lattice

namespace MinFold

variable {α : Type*} [LinearOrder α]

/-- The minimum of `b` and of `g c` over the indices `c` below `n`. -/
def minBelow {N : ℕ} (b : α) (g : Fin N → α) (n : ℕ) : α :=
  (Finset.univ.filter fun c : Fin N => c.val < n).fold min b g

/-- Lower bounds of a minimum over the whole range. -/
theorem le_fold_min_univ {N : ℕ} (b : α) (g : Fin N → α) (z : α) :
    z ≤ (Finset.univ : Finset (Fin N)).fold min b g ↔ z ≤ b ∧ ∀ c : Fin N, z ≤ g c := by
  rw [Finset.le_fold_min]
  exact ⟨fun h => ⟨h.1, fun c => h.2 c (Finset.mem_univ c)⟩, fun h => ⟨h.1, fun c _ => h.2 c⟩⟩

/-- Lower bounds of a running minimum. -/
theorem le_minBelow_iff {N : ℕ} (b : α) (g : Fin N → α) (n : ℕ) (z : α) :
    z ≤ minBelow b g n ↔ z ≤ b ∧ ∀ c : Fin N, c.val < n → z ≤ g c := by
  unfold minBelow
  rw [Finset.le_fold_min]
  refine ⟨fun h => ⟨h.1, fun c hc => h.2 c (Finset.mem_filter.2 ⟨Finset.mem_univ c, hc⟩)⟩,
    fun h => ⟨h.1, fun c hc => h.2 c (Finset.mem_filter.1 hc).2⟩⟩

/-- Below index 0 there is nothing: the running minimum is the starting value. -/
theorem minBelow_zero {N : ℕ} (b : α) (g : Fin N → α) : minBelow b g 0 = b := by
  refine eq_of_forall_le_iff fun z => ?_
  rw [le_minBelow_iff]
  exact ⟨fun h => h.1, fun h => ⟨h, fun c hc => absurd hc (Nat.not_lt_zero _)⟩⟩

/-- A segment that reaches the end is the whole range. -/
theorem minBelow_all {N : ℕ} (b : α) (g : Fin N → α) (n : ℕ) (h : N ≤ n) :
    minBelow b g n = (Finset.univ : Finset (Fin N)).fold min b g := by
  refine eq_of_forall_le_iff fun z => ?_
  rw [le_minBelow_iff, le_fold_min_univ]
  exact ⟨fun hz => ⟨hz.1, fun c => hz.2 c (lt_of_lt_of_le c.isLt h)⟩, fun hz => ⟨hz.1, fun c _ => hz.2 c⟩⟩

/-- Extending a segment by a block of `B` indices: the minimum with the block's own minimum. -/
theorem minBelow_add {N B : ℕ} (b : α) (g : Fin N → α) (h : Fin B → α) (n : ℕ) (hn : n + B ≤ N)
    (e : ∀ q : Fin B, h q = g ⟨n + q.val, lt_of_lt_of_le (Nat.add_lt_add_left q.isLt n) hn⟩) :
    min (minBelow b g n) ((Finset.univ : Finset (Fin B)).fold min b h) = minBelow b g (n + B) := by
  refine eq_of_forall_le_iff fun z => ?_
  rw [le_min_iff, le_minBelow_iff, le_minBelow_iff, le_fold_min_univ]
  constructor
  · rintro ⟨⟨hb, h1⟩, -, h2⟩
    refine ⟨hb, fun c hc => ?_⟩
    by_cases hlt : c.val < n
    · exact h1 c hlt
    · have hq : c.val - n < B := by omega
      have := h2 ⟨c.val - n, hq⟩
      rw [e] at this
      have hc' : (⟨n + (c.val - n), lt_of_lt_of_le (Nat.add_lt_add_left hq n) hn⟩ : Fin N) = c :=
        Fin.ext (by show n + (c.val - n) = c.val; omega)
      rwa [hc'] at this
  · rintro ⟨hb, h1⟩
    refine ⟨⟨hb, fun c hc => h1 c (by omega)⟩, hb, fun q => ?_⟩
    rw [e]
    exact h1 _ (by show n + q.val < n + B; have := q.isLt; omega)

end MinFold
-- ==== Proof.Consts.lean ====
/-
  The two constants the kernel and the reference scale by, as the extended reals their words denote: 256 and its
  reciprocal 2⁻⁸.  A quotient by 256 is the product with 2⁻⁸ on every extended real, the infinities included.
-/
import Idealize.ShloMosaic.PureOps.Ideal

noncomputable section

namespace Cert.Consts

open Idealize.ShloMosaic

/-- The word of `256.0` denotes the real 256. -/
theorem ofBits_256 : Ideal.ofBits .f32 0x43800000#32 = ((256 : ℝ) : EReal) := by
  simp [Ideal.ofBits, Ideal.ieee, -EReal.coe_mul]; norm_num

/-- The word of `0.00390625` denotes the real 1/256. -/
theorem ofBits_inv256 : Ideal.ofBits .f32 0x3B800000#32 = ((1 / 256 : ℝ) : EReal) := by
  simp [Ideal.ofBits, Ideal.ieee, -EReal.coe_mul]; norm_num

/-- Dividing by 256 is multiplying by 2⁻⁸, for every extended real. -/
theorem div_256 (x : EReal) :
    Ideal.div x (Ideal.ofBits .f32 0x43800000#32) = x * Ideal.ofBits .f32 0x3B800000#32 := by
  rw [ofBits_256, ofBits_inv256]
  exact Ideal.div_coe (by norm_num) x

end Cert.Consts

end
-- ==== Proof.Spec.lean ====
/-
  What both programs compute, as one function of the two argument matrices X and Y (8192 rows of 256 entries).

  For a row r of X and a row c of Y the scaled squared distance is
      entry r c = ((|X_r|² + |Y_c|²) − 2·⟨X_r, Y_c⟩) · 2⁻⁸,
  the squared norms and the inner product being sums over the 256 columns.  The result is the mean over r of the
  minimum over c of entry r c: the minimum taken from +∞, the mean as the sum from 0 divided by 8192.  The three
  words 2, +∞ and 2⁻⁸ are kept as the programs spell them; only 2⁻⁸ against the reference's division by 256 is
  ever evaluated.

  The running minimum over the first n columns (`rowMinBelow`) is what the kernel has accumulated for a row
  after it has seen the column blocks to the left of column n.
-/
import Idealize.ShloMosaic.Lib.ValueIdx
import Idealize.ShloMosaic.PureOps.Ideal.Laws
import proofs.«106607_j84086869721403_1_alg».proof.Proof.LibMinFold
import proofs.«106607_j84086869721403_1_alg».proof.Proof.Consts

noncomputable section

namespace Cert.Spec

open Idealize.ShloMosaic Idealize.ShloMosaic.ValueIdx

/-- An 8192 × 256 matrix of extended reals. -/
abbrev Mat : Type := (⟨2, ![8192, 256]⟩ : Shape).Idx → EReal

/-- The word of `2.0`. -/
def twoW : EReal := Ideal.ofBits .f32 0x40000000#32
/-- The word of `+∞`, from which every minimum starts. -/
def topW : EReal := Ideal.ofBits .f32 0x7F800000#32
/-- The word of `2⁻⁸`. -/
def scaleW : EReal := Ideal.ofBits .f32 0x3B800000#32

/-- The scaled squared distance of row `r` of `X` and row `c` of `Y`, from the two squared norms and the inner product. -/
def entry (X Y : Mat) (r c : Fin 8192) : EReal :=
  ((∑ k : Fin 256, X (ix2 r k) * X (ix2 r k) + ∑ k : Fin 256, Y (ix2 c k) * Y (ix2 c k))
    - twoW * ∑ k : Fin 256, X (ix2 r k) * Y (ix2 c k)) * scaleW

/-- Row `r`'s minimum over the columns below `n`, from `+∞`. -/
def rowMinBelow (X Y : Mat) (r : Fin 8192) (n : ℕ) : EReal := MinFold.minBelow topW (entry X Y r) n

/-- Row `r`'s minimum over all 8192 columns, from `+∞`. -/
def rowMin (X Y : Mat) (r : Fin 8192) : EReal := (Finset.univ : Finset (Fin 8192)).fold min topW (entry X Y r)

theorem rowMinBelow_all (X Y : Mat) (r : Fin 8192) : rowMinBelow X Y r 8192 = rowMin X Y r :=
  MinFold.minBelow_all _ _ _ (le_refl _)

/-- The row minima as an [8192, 1] column. -/
def rowMinCol (X Y : Mat) : (⟨2, ![8192, 1]⟩ : Shape).Idx → EReal := fun i => rowMin X Y (i 0)

/-- The mean of the row minima: their sum from the zero word, divided by the word of 8192. -/
def mean (X Y : Mat) : EReal :=
  Ideal.div (Ideal.ofBits .f32 0x00000000#32 + ∑ r : Fin 8192, rowMin X Y r) (Ideal.ofBits .f32 0x46000000#32)

/-- A sum over the indices of a one-dimensional array is the sum over its coordinate. -/
theorem sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  exact (Equiv.sum_comp e.symm f).symm

/-- A sum over the indices of an [n, 1] column is the sum over its rows. -/
theorem sum_idx_col {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.Spec

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibRowLayout.lean ====
/-
  A column turned into a row and spread over a matrix, read at an index.

  An [a, 1] column transposed is a [1, a] row whose entry (0, q) is the column's entry (q, 0); a [1, b] row
  broadcast to [a, b] has at (p, q) the row's entry (0, q): every entry of column q sees that column's own value.
  Stated for any element type and any extents.
-/
import Idealize.ShloMosaic.Lib.Pipeline.Value
import Idealize.ShloMosaic.Lib.ValueIdx

noncomputable section

namespace RowLayout

open Idealize.ShloMosaic Idealize.ShloMosaic.ValueIdx

/-- An [a, 1] column transposed to a [1, a] row reads, at (u, q), the column's entry (q, u). -/
theorem transpose_a1_1a_apply {α : Type} {a : ℕ} (x : (⟨2, ![a, 1]⟩ : Shape).Idx → α)
    (h : (⟨2, ![a, 1]⟩ : Shape).Transposes [1, 0] ⟨2, ![1, a]⟩) (u : Fin 1) (q : Fin a) :
    transpose ⟨2, ![1, a]⟩ [1, 0] x h (ix2 u q) = x (ix2 q u) := by
  refine transpose_apply [1, 0] x h (ix2 u q) (ix2 q u) fun b => ?_
  match b with
  | ⟨0, _⟩ => rfl
  | ⟨1, _⟩ => rfl

/-- A [1, b] row broadcast to [a, b] reads, at (p, q), the row's entry (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end RowLayout

end
-- ==== Proof.LibRowMin.lean ====
/-
  A minimum along the rows of a two-dimensional array, read at a row.

  Reducing an [m, n] array over its second axis with the minimum leaves an [m] array; at row p it is the minimum
  of the starting value and of the row's n entries, in whatever order they are combined.  The same reading holds
  for a kernel's vector reduction and for a host reduction with a minimum body.  Stated for any extents.
-/
import Idealize.ShloMosaic.Lib.ValueIdx
import Idealize.ShloMosaic.PureOps.Ideal.Laws

noncomputable section

namespace RowMin

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A kernel's minimum over the second axis, at row p: the minimum of the starting word's value and the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.minimumf.neutral φ hφ) (p : Fin m) :
    multiReduction .minimumf [1] (⟨1, ![m]⟩ : Shape) src acc h hφ hacc (ix1 p)
      = (Finset.univ : Finset (Fin n)).fold min (Ideal.ofBits φ acc) (fun k => src (ix2 p k)) := by
  rw [multiReduction_minimumf_eq_fold]
  refine (h.fold_filter_drop_single _ _ src (ix1 p)).trans ?_
  show (Finset.univ : Finset (Fin n)).fold min (Ideal.ofBits φ acc) (src ∘ h.lift (ix1 p)) = _
  exact Finset.fold_congr fun k _ => congrArg src (lift_ix2 h p k)

/-- A host reduction with a minimum body over the second axis, at row p: the same minimum, from the initial value. -/
theorem hostReduce_apply {φ : FTy} {u : Shape} (x : (⟨2, ![m, n]⟩ : Shape).Idx → Ideal φ) (init : u.Idx → Ideal φ)
    (h' : (⟨2, ![m, n]⟩ : Shape).ReducesTo [1] (⟨1, ![m]⟩ : Shape))
    (h : (⟨2, ![m, n]⟩ : Shape).Reduces [1] (⟨1, ![m]⟩ : Shape)) (hu : 0 < u.numel) (p : Fin m) :
    Host.reduce (FloatOps.minimumf (F := Ideal) (φ := φ)) x init h' hu (ix1 p)
      = (Finset.univ : Finset (Fin n)).fold min (init (Shape.Idx.first hu)) (fun k => x (ix2 p k)) := by
  rw [Host.reduce_eq_fold_single (FloatOps.minimumf (F := Ideal) (φ := φ)) x init h' h hu (ix1 p)]
  show (Finset.univ : Finset (Fin n)).fold min (init (Shape.Idx.first hu)) (x ∘ h.lift (ix1 p)) = _
  exact Finset.fold_congr fun k _ => congrArg x (lift_ix2 h p k)

end RowMin

end
-- ==== Proof.KernelPayload.lean ====
/-
  What the kernel body computes at one grid point, as values.

  With x0 a block of 1024 rows of X and x1 a block of 1024 rows of Y, the body forms at (p, q) the scaled squared
  distance of row p of x0 and row q of x1 — the two squared norms by row sums, the inner product by the matrix
  product x0 · x1ᵀ (the change of float format before it is the identity on exact values) — takes the minimum of
  each row p over the 1024 columns from +∞, and stores into the accumulator column the minimum of that and of what
  the accumulator held.  The reset stores the constant +∞ column.
-/
import proofs.«106607_j84086869721403_1_alg».proof.Proof.Gen.KernelIdeal.Skeleton
import proofs.«106607_j84086869721403_1_alg».proof.Proof.Spec
import proofs.«106607_j84086869721403_1_alg».proof.Proof.LibDotForms
import proofs.«106607_j84086869721403_1_alg».proof.Proof.LibKeepdims
import proofs.«106607_j84086869721403_1_alg».proof.Proof.LibRowSum
import proofs.«106607_j84086869721403_1_alg».proof.Proof.LibRowLayout
import proofs.«106607_j84086869721403_1_alg».proof.Proof.LibRowMin
import Idealize.ShloMosaic.Lib.Pipeline.Value

noncomputable section

namespace Cert.KernelIdeal.Payload

open Cert.KernelIdeal Cert.KernelIdeal.Gen
open Idealize.ShloMosaic Idealize.ShloMosaic.ValueIdx Cert.Spec

/-- The scaled squared distance of row `p` of the block `x0` and row `q` of the block `x1`. -/
def blkEntry (x0 x1 : FVec Ideal S1024x256 .f32) (p q : Fin 1024) : EReal :=
  ((∑ k : Fin 256, x0 (ix2 p k) * x0 (ix2 p k) + ∑ k : Fin 256, x1 (ix2 q k) * x1 (ix2 q k))
    - twoW * ∑ k : Fin 256, x0 (ix2 p k) * x1 (ix2 q k)) * scaleW

/-- The reset's column holds `+∞` everywhere. -/
theorem pay1_apply (y : S1024x1.Idx) : k0_pay1 (F := Ideal) y = topW := by
  unfold k0_pay1
  exact congrFun (shapeCast_self _ _) y

/-- The update's column at row `p`: the minimum of what the accumulator held there and of the row's distances to
    the 1024 rows of `x1`, from `+∞`. -/
theorem pay2_apply (x0 x1 : FVec Ideal S1024x256 .f32) (acc : FVec Ideal S1024x1 .f32) (p : Fin 1024) (u : Fin 1) :
    k0_pay2 (F := Ideal) x0 x1 acc (ix2 p u)
      = min (acc (ix2 p u)) ((Finset.univ : Finset (Fin 1024)).fold min topW (blkEntry x0 x1 p)) := by
  unfold k0_pay2
  dsimp only
  rw [shapeCast_self]
  rw [minimumf_apply, KeepdimsLayout.shapeCast_a_a1_apply]
  refine congrArg (min (acc (ix2 p u))) ?_
  refine (RowMin.multiReduction_apply _ _ _ _ _ p).trans (Finset.fold_congr fun q _ => ?_)
  unfold blkEntry
  refine congrArg₂ (· * ·) (congrArg₂ (· - ·) (congrArg₂ (· + ·) ?_ ?_) (congrArg₂ (· * ·) rfl ?_)) rfl
  · exact (KeepdimsLayout.broadcastTo_a1_ab_apply _ _ p q).trans
      ((KeepdimsLayout.shapeCast_a_a1_apply _ _ p 0).trans (RowSum.multiReduction_apply _ _ _ _ _ p))
  · exact (RowLayout.broadcastTo_1b_ab_apply _ _ p q).trans ((RowLayout.transpose_a1_1a_apply _ _ 0 q).trans
      ((KeepdimsLayout.shapeCast_a_a1_apply _ _ q 0).trans (RowSum.multiReduction_apply _ _ _ _ _ q)))
  · exact DotForms.abt_matmul_zero_apply ⟨rfl, rfl, rfl, rfl, rfl, rfl⟩ none _ _ p q

end Cert.KernelIdeal.Payload

end
-- ==== Proof.KernelAcc.lean ====
/-
  The accumulator, point by point.

  The grid has 8 × 8 points; point t works on the block of 1024 rows of X numbered t / 8 and on the block of 1024
  rows of Y numbered t % 8.  Row p of the first block is row 1024·(t / 8) + p of X, row q of the second is row
  1024·(t % 8) + q of Y, so the body's block distances are entries of the full distance matrix.  By induction on
  the point, after point t the accumulator's row p holds the minimum, from +∞, of the distances of that row of X
  to the rows of Y below 1024·(t % 8) + 1024: a point that opens a grid row starts again from +∞, every other
  point extends the segment the point before had reached by one block.  At a point that closes a grid row the
  segment is all of Y, and the output block holds the same column.
-/
import proofs.«106607_j84086869721403_1_alg».proof.Proof.Gen.KernelIdeal.Frame
import proofs.«106607_j84086869721403_1_alg».proof.Proof.KernelPieces
import proofs.«106607_j84086869721403_1_alg».proof.Proof.KernelPayload
import Idealize.ShloMosaic.Lib.Pipeline.Value

noncomputable section

namespace Cert.KernelIdeal.Acc

open Cert.KernelIdeal Cert.KernelIdeal.Gen
open Idealize.ShloMosaic Idealize.ShloMosaic.TcCoe Idealize.SL.Sem Idealize.ShloMosaic.ValueIdx Cert.Spec
open Cert.KernelIdeal.Payload (blkEntry)

variable (m : (ℓ : Loc nD τ sig) → Buf (Elt Ideal) ℓ)

/-- The two argument matrices as the region finds them. -/
abbrev X (c : Dev nD) : Mat := V m c main_arg0
abbrev Y (c : Dev nD) : Mat := V m c main_arg1
/-- The two input blocks at point `t`. -/
abbrev xblk (c : Dev nD) (t : Fin cfg0.N) : FVec Ideal S1024x256 .f32 := iblk m c 0 t
abbrev yblk (c : Dev nD) (t : Fin cfg0.N) : FVec Ideal S1024x256 .f32 := iblk m c 1 t

theorem t_lt (t : Fin cfg0.N) : t.val < 64 := lt_of_lt_of_eq t.isLt (show cfg0.N = 64 from N_0)

/-- Which block of each array a point works on: the block of X and of the result numbered `t / 8`, the block of Y numbered `t % 8`. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Row `p` of point `t`'s block of X, as a row of X. -/
def rowOf (t : Fin cfg0.N) (p : Fin 1024) : Fin 8192 :=
  ⟨1024 * (t.val / 8) + p.val, by have := t_lt t; have := p.isLt; omega⟩
/-- Row `q` of point `t`'s block of Y, as a row of Y. -/
def colOf (t : Fin cfg0.N) (q : Fin 1024) : Fin 8192 :=
  ⟨1024 * (t.val % 8) + q.val, by have := q.isLt; omega⟩

theorem xblk_apply (c : Dev nD) (t : Fin cfg0.N) (p : Fin 1024) (k : Fin 256) :
    xblk m c t (ix2 p k) = X m c (ix2 (rowOf t p) k) := by
  show V m c main_arg0 (((cfg0.win 0).blk t).view.emb (ix2 p k)) = V m c main_arg0 (ix2 (rowOf t p) k)
  refine congrArg (V m c main_arg0) (funext fun a => Fin.ext ?_)
  obtain ⟨e0, e1, -⟩ := idx_facts t
  match a with
  | ⟨0, _⟩ => show win0_0.index t (0 : Fin 2) * 1024 + 1 * p.val = 1024 * (t.val / 8) + p.val; omega
  | ⟨1, _⟩ => show win0_0.index t (1 : Fin 2) * 256 + 1 * k.val = k.val; omega

theorem yblk_apply (c : Dev nD) (t : Fin cfg0.N) (q : Fin 1024) (k : Fin 256) :
    yblk m c t (ix2 q k) = Y m c (ix2 (colOf t q) k) := by
  show V m c main_arg1 (((cfg0.win 1).blk t).view.emb (ix2 q k)) = V m c main_arg1 (ix2 (colOf t q) k)
  refine congrArg (V m c main_arg1) (funext fun a => Fin.ext ?_)
  obtain ⟨-, -, e0, e1, -⟩ := idx_facts t
  match a with
  | ⟨0, _⟩ => show win0_1.index t (0 : Fin 2) * 1024 + 1 * q.val = 1024 * (t.val % 8) + q.val; omega
  | ⟨1, _⟩ => show win0_1.index t (1 : Fin 2) * 256 + 1 * k.val = k.val; omega

/-- The body's block distance at (p, q) is the entry of the full distance matrix at those rows of X and Y. -/
theorem blkEntry_eq (c : Dev nD) (t : Fin cfg0.N) (p q : Fin 1024) :
    blkEntry (xblk m c t) (yblk m c t) p q = entry (X m c) (Y m c) (rowOf t p) (colOf t q) := by
  unfold Payload.blkEntry entry
  simp only [xblk_apply, yblk_apply]

/-- One block more: the minimum over the rows of Y below point `t`'s block, with the block's own minimum, is the
    minimum over the rows below the block's end. -/
theorem extend (c : Dev nD) (t : Fin cfg0.N) (p : Fin 1024) :
    min (rowMinBelow (X m c) (Y m c) (rowOf t p) (1024 * (t.val % 8)))
        ((Finset.univ : Finset (Fin 1024)).fold min topW (blkEntry (xblk m c t) (yblk m c t) p))
      = rowMinBelow (X m c) (Y m c) (rowOf t p) (1024 * (t.val % 8) + 1024) :=
  MinFold.minBelow_add topW (entry (X m c) (Y m c) (rowOf t p)) (blkEntry (xblk m c t) (yblk m c t) p) (1024 * (t.val % 8))
    (by omega) (fun q => blkEntry_eq m c t p q)

/-! ## What each kind of point leaves, at an index -/

theorem step_first (c : Dev nD) (t : Fin cfg0.N) (h0 : t.val % 8 = 0) (h1 : ¬t.val % 8 = 7) (p : Fin 1024) (u : Fin 1) :
    (outsAt0 m c t.val t.isLt).2 (ix2 p u)
      = min topW ((Finset.univ : Finset (Fin 1024)).fold min topW (blkEntry (xblk m c t) (yblk m c t) p)) := by
  rw [outsAt0_A m c t h0 h1]
  dsimp only
  refine (congrFun (Pieces.acc_first (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)) (ix2 p u)).trans ?_
  refine (Payload.pay2_apply (xblk m c t) (yblk m c t) (k0_pay1 (F := Ideal)) p u).trans ?_
  rw [Payload.pay1_apply]

theorem step_mid (c : Dev nD) (t : Fin cfg0.N) (h0 : ¬t.val % 8 = 0) (h1 : ¬t.val % 8 = 7) (p : Fin 1024) (u : Fin 1) :
    (outsAt0 m c t.val t.isLt).2 (ix2 p u)
      = min ((outsAt0 m c (t.val - 1) (Nat.lt_of_le_of_lt (Nat.sub_le _ _) t.isLt)).2 (ix2 p u))
          ((Finset.univ : Finset (Fin 1024)).fold min topW (blkEntry (xblk m c t) (yblk m c t) p)) := by
  rw [outsAt0_B m c t h0 h1]
  dsimp only
  refine (congrFun (Pieces.acc_mid (F := Ideal) c (grid0.coords t) (ms0_0 t) (hs0_0 t) (ms0_1 t) (hs0_1 t) (ms0_2 t) (hs0_2 t)
    scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2) (ix2 p u)).trans ?_
  exact Payload.pay2_apply (xblk m c t) (yblk m c t) (outsAt0 m c (t.val - 1) (Nat.lt_of_le_of_lt (Nat.sub_le _ _) t.isLt)).2 p u

theorem step_last (c : Dev nD) (t : Fin cfg0.N) (h0 : ¬t.val % 8 = 0) (h1 : t.val % 8 = 7) (p : Fin 1024) (u : Fin 1) :
    (outsAt0 m c t.val t.isLt).2 (ix2 p u)
      = min ((outsAt0 m c (t.val - 1) (Nat.lt_of_le_of_lt (Nat.sub_le _ _) t.isLt)).2 (ix2 p u))
          ((Finset.univ : Finset (Fin 1024)).fold min topW (blkEntry (xblk m c t) (yblk m c t) p)) := by
  rw [outsAt0_C m c t h0 h1]
  dsimp only
  refine (congrFun (Pieces.acc_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) (ix2 p u)).trans ?_
  exact Payload.pay2_apply (xblk m c t) (yblk m c t) (outsAt0 m c (t.val - 1) (Nat.lt_of_le_of_lt (Nat.sub_le _ _) t.isLt)).2 p u

/-- At a point that closes a grid row the output block holds what the accumulator holds. -/
theorem out_eq_acc (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (Pieces.out_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans
    (Pieces.acc_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).symm

/-! ## The induction over the points -/

/-- After point `n` the accumulator's row `p` is that row's minimum over the rows of Y seen so far in this grid row. -/
theorem acc_eq (c : Dev nD) : ∀ (n : ℕ) (hn : n < cfg0.N) (p : Fin 1024) (u : Fin 1),
    (outsAt0 m c n hn).2 (ix2 p u)
      = rowMinBelow (X m c) (Y m c) (rowOf ⟨n, hn⟩ p) (1024 * (n % 8) + 1024)
  | 0, hn, p, u => by
    refine (step_first m c ⟨0, hn⟩ rfl (by show ¬((0 : ℕ) % 8 = 7); omega) p u).trans ?_
    refine Eq.trans ?_ (extend m c ⟨0, hn⟩ p)
    refine congrArg (fun z => min z _) ?_
    exact (MinFold.minBelow_zero _ _).symm
  | n + 1, hn, p, u => by
    have ih := acc_eq c n (Nat.lt_of_succ_lt hn) p u
    have hN : n + 1 < 64 := t_lt ⟨n + 1, hn⟩
    by_cases h0 : (n + 1) % 8 = 0
    · have h1 : ¬(n + 1) % 8 = 7 := by omega
      refine (step_first m c ⟨n + 1, hn⟩ h0 h1 p u).trans ?_
      refine Eq.trans ?_ (extend m c ⟨n + 1, hn⟩ p)
      refine congrArg (fun z => min z _) ?_
      show topW = rowMinBelow (X m c) (Y m c) (rowOf ⟨n + 1, hn⟩ p) (1024 * ((n + 1) % 8))
      rw [h0]
      exact (MinFold.minBelow_zero _ _).symm
    · have e1 : rowOf ⟨n, Nat.lt_of_succ_lt hn⟩ p = rowOf ⟨n + 1, hn⟩ p :=
        Fin.ext (by show 1024 * (n / 8) + p.val = 1024 * ((n + 1) / 8) + p.val; omega)
      have e2 : 1024 * (n % 8) + 1024 = 1024 * ((n + 1) % 8) := by omega
      rw [e1, e2] at ih
      have hstep : (outsAt0 m c (n + 1) hn).2 (ix2 p u)
          = min ((outsAt0 m c n (Nat.lt_of_succ_lt hn)).2 (ix2 p u))
              ((Finset.univ : Finset (Fin 1024)).fold min topW (blkEntry (xblk m c ⟨n + 1, hn⟩) (yblk m c ⟨n + 1, hn⟩) p)) := by
        by_cases h1 : (n + 1) % 8 = 7
        · exact step_last m c ⟨n + 1, hn⟩ h0 h1 p u
        · exact step_mid m c ⟨n + 1, hn⟩ h0 h1 p u
      rw [hstep, ih]
      exact extend m c ⟨n + 1, hn⟩ p

/-- At a point that closes a grid row the output block's row `p` is the minimum over all of Y. -/
theorem out_eq (c : Dev nD) (t : Fin cfg0.N) (h1 : t.val % 8 = 7) (y : S1024x1.Idx) :
    (outsAt0 m c t.val t.isLt).1 y = rowMin (X m c) (Y m c) (rowOf t (y 0)) := by
  obtain ⟨p, u, rfl⟩ : ∃ (p : Fin 1024) (u : Fin 1), y = ix2 p u := ⟨y 0, y 1, eq_ix2 y⟩
  rw [out_eq_acc m c t (by omega) h1, acc_eq m c t.val t.isLt p u, h1]
  exact rowMinBelow_all _ _ _

end Cert.KernelIdeal.Acc

end
-- ==== Proof.KernelValue.lean ====
/-
  The kernel program's result.

  Only the points that close a grid row write the output block back, and block t / 8 of the [8192, 1] result
  array is rows 1024·(t / 8) … 1024·(t / 8) + 1023: what such a point writes is that block of the column of row
  minima, and the eight blocks tile the array, so after the region the array is the column of row minima.  The
  host operations after the region sum that column from 0 and divide by 8192: the mean of the row minima.
-/
import proofs.«106607_j84086869721403_1_alg».proof.Proof.KernelAcc
import Idealize.ShloMosaic.Lib.StableHlo.Run

noncomputable section

namespace Cert.KernelIdeal.KernelValue

open Cert.KernelIdeal Cert.KernelIdeal.Gen
open Idealize.ShloMosaic Idealize.ShloMosaic.TcCoe Idealize.SL.Sem Idealize.ShloMosaic.ValueIdx Cert.Spec
open Idealize.ShloMosaic.Pipeline (Dat)
open Cert.KernelIdeal.Acc (X Y rowOf)

variable (m : (ℓ : Loc nD τ sig) → Buf (Elt Ideal) ℓ) (ρ : Dev nD → PrngReg)

/-- What a point that writes back writes: its block of the column of row minima. -/
theorem flushed_eq (c : Dev nD) (t : Fin cfg0.N) (hf : (cfg0.win 2).flush t = true) :
    (dats m 0 c).flushed 2 t = ((cfg0.win 2).blk t).view.read (Elt Ideal) (rowMinCol (X m c) (Y m c)) := by
  have h7 : t.val % 8 = 7 := (flush0_2 t).mp hf
  show (cfg0.win 2).cut (grid0.coords t) ((dats m 0 c).after 2 t) = _
  rw [after0_2]
  funext j
  show (outsAt0 m c t.val t.isLt).1 j = rowMinCol (X m c) (Y m c) (((cfg0.win 2).blk t).view.emb j)
  refine (Acc.out_eq m c t h7 j).trans ?_
  show rowMin (X m c) (Y m c) (rowOf t (j 0)) = rowMin (X m c) (Y m c) ((((cfg0.win 2).blk t).view.emb j) 0)
  refine congrArg (rowMin (X m c) (Y m c)) (Fin.ext ?_)
  obtain ⟨-, -, -, -, e0, e1⟩ := Acc.idx_facts t
  show 1024 * (t.val / 8) + (j 0).val = win0_2.index t (0 : Fin 2) * 1024 + 1 * (j 0).val
  omega

/-- An index of the result array is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- Every row of the result array is in the block of the point that closes its grid row. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ : ∃ t : Fin cfg0.N, t.val = 8 * ((i 0).val / 1024) + 7 :=
    ⟨⟨8 * ((i 0).val / 1024) + 7, by rw [show cfg0.N = 64 from N_0]; omega⟩, rfl⟩
  refine ⟨t, (flush0_2 t).mpr (by omega), ?_⟩
  rw [mem_blk]
  obtain ⟨-, -, -, -, e0, e1⟩ := Acc.idx_facts t
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

/-- After the region the result array is the column of row minima. -/
theorem final (c : Dev nD) : (dats m 0 c).arrAt 2 cfg0.N = rowMinCol (X m c) (Y m c) :=
  (dats m 0 c).arrAt_eq_of_cover 2 (rowMinCol (X m c) (Y m c)) (flushed_eq m c) cover

/-- The host operations after the region, of the column of row minima: its mean. -/
theorem tail_eq (c : Dev nD) :
    Pipeline.afterTail₀ cfgs (dats m) 0 (V0 m) [hostOps1] c main_v2 = fun _ => mean (X m c) (Y m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v0)
      = rowMinCol (X m c) (Y m c) := (Pipeline.withArrays_arr spec0 launch0.win.arr_inj c _ _ 2).trans (final m c)
  rw [hw]
  funext i
  show FloatOps.hostDivf (Host.reduceAdd (F := Ideal) (rowMinCol (X m c) (Y m c)) (constant S_ .f32 0x00000000#32) reducesTo_S8192x1_S_d0_1 h_S_ i)
    (constant (F := Ideal) S_ .f32 0x46000000#32 i) = _
  simp only [Host.reduceAdd, Ideal.hostReduceAdd_def]
  rw [Ideal.hostReduceAdd_total reducesTo_S8192x1_S_d0_1 (fun b => b.elim0), sum_idx_col]
  rfl

/-- The result buffer is no array of the pipeline, and is not scoped. -/
theorem main_v2_rest : main_v2 ∈ Pipeline.restRefs sig spec0 :=
  Pipeline.mem_restRefs_of main_v2 rfl (fun w => by fin_cases w <;> decide)

/-- The kernel program's run, read: the result buffer at the mean of the row minima, the arguments unchanged. -/
theorem run : θ_run defs (onTc (τ := τ) (main (F := Ideal))) ⟨m, fun _ => 0, ρ⟩ fun r => ∀ c : Dev nD,
      r.2.mem ((c.tc : Thread nD τ).loc main_v2) = (fun _ => mean (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 main_v2_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference, read: its result is the mean of the row minima of the scaled squared distances.

  Stage by stage the reference forms the squared norms of the rows of X and of Y, the 8192 × 8192 matrix of inner
  products, at (r, c) the combination ((|X_r|² + |Y_c|²) − 2·⟨X_r, Y_c⟩) / 256, the minimum of each row from +∞,
  and the sum of those minima from 0 divided by 8192.  The host's sums start from the zero word, which adds
  nothing, and the division by 256 is the product with 2⁻⁸ on every extended real: so the entry is `Spec.entry`
  and the result `Spec.mean`.
-/
import proofs.«106607_j84086869721403_1_alg».proof.Proof.Gen.ReferenceIdeal.Read
import proofs.«106607_j84086869721403_1_alg».proof.Proof.Spec
import proofs.«106607_j84086869721403_1_alg».proof.Proof.LibRowMin

noncomputable section

namespace Cert.ReferenceIdeal.RefValue

open Cert.ReferenceIdeal Cert.ReferenceIdeal.Gen Cert.ReferenceIdeal.Read
open Idealize.ShloMosaic Idealize.ShloMosaic.ValueIdx Cert.Spec

/-- The reference's distance matrix at (r, c) is the scaled squared distance of row r of X and row c of Y. -/
theorem dist_apply (X Y : Mat) (r c : Fin 8192) : val_main_v14 (F := Ideal) X Y (ix2 r c) = entry X Y r c := by
  have e1 : ∀ k : Fin 256, idx_main_v1 (idx_main_v5 (idx_main_v7 (ix2 r c))) k = ix2 r k := fun k =>
    funext fun a => Fin.ext (by match a with | ⟨0, _⟩ => rfl | ⟨1, _⟩ => rfl)
  have e3 : ∀ k : Fin 256, idx_main_v3 (idx_main_v6 (idx_main_v8 (ix2 r c))) k = ix2 c k := fun k =>
    funext fun a => Fin.ext (by match a with | ⟨0, _⟩ => rfl | ⟨1, _⟩ => rfl)
  have el : ∀ k : Fin 256, lidx_main_v4 (ix2 r c) k = ix2 r k := fun k =>
    funext fun a => Fin.ext (by match a with | ⟨0, _⟩ => rfl | ⟨1, _⟩ => rfl)
  have er : ∀ k : Fin 256, ridx_main_v4 (ix2 r c) k = ix2 c k := fun k =>
    funext fun a => Fin.ext (by match a with | ⟨0, _⟩ => rfl | ⟨1, _⟩ => rfl)
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply]
  simp only [e1, e3, el, er, val_main_v0_apply, val_main_v2_apply, val_main_cst_apply, val_main_cst_0_apply,
    val_main_cst_1_apply, val_main_cst_2_apply, Ideal.hostDivf_def, Ideal.mulf_def, Ideal.addf_def, Ideal.subf_def,
    Ideal.ofBits_def, Ideal.ofBits_zero_f32, zero_add, Cert.Consts.div_256]
  rfl

/-- The reference's row minima: at row r the minimum over all columns of the scaled squared distance. -/
theorem rowMin_apply (X Y : Mat) (r : Fin 8192) : val_main_v15 (F := Ideal) X Y (ix1 r) = rowMin X Y r := by
  unfold val_main_v15
  rw [RowMin.hostReduce_apply (val_main_v14 (F := Ideal) X Y) (val_main_cst_3 (F := Ideal))
    reducesTo_S8192x8192_S8192_d1 (by decide) h_S_ r]
  unfold rowMin
  exact Finset.fold_congr fun c _ => dist_apply X Y r c

/-- The reference's result is the mean of the row minima. -/
theorem result_eq (X Y : Mat) : val_main_v17 (F := Ideal) X Y = fun _ => mean X Y := by
  funext i
  rw [val_main_v17_apply, val_main_v16_apply, sum_idx1]
  simp only [rowMin_apply]
  rfl

end Cert.ReferenceIdeal.RefValue

end
-- ==== Proof.lean ====
/-
  Both programs compute the mean, over the 8192 rows r of X, of the minimum over the 8192 rows c of Y of the scaled
  squared distance ((|X_r|² + |Y_c|²) − 2·⟨X_r, Y_c⟩) · 2⁻⁸, read over the extended reals.

  The kernel never forms the 8192 × 8192 matrix: a grid of 8 × 8 points takes 1024 rows of X against 1024 rows of Y
  at a time, keeps for each row of X the running minimum over the blocks of Y seen so far (started from +∞ when a
  grid row opens), writes the column of row minima out when a grid row closes, and the mean is taken afterwards.  A
  minimum over all rows of Y is the minimum of the minima over its eight blocks, whatever the grouping; the change
  of float format before the kernel's matrix product is the identity on exact values; and the kernel's product
  with 2⁻⁸ is the reference's quotient by 256 on every extended real.  No finiteness of the inputs is needed.  The
  idealization rewrote nothing, so the kernel's idealized text is the kernel's own.
-/
import proofs.«106607_j84086869721403_1_alg».proof.Defs
import proofs.«106607_j84086869721403_1_alg».proof.Proof.Gen.Kernel
import proofs.«106607_j84086869721403_1_alg».proof.Proof.Gen.Kernel.Skeleton
import proofs.«106607_j84086869721403_1_alg».proof.Proof.Gen.Kernel.Launch
import proofs.«106607_j84086869721403_1_alg».proof.Proof.Gen.Kernel.Points
import proofs.«106607_j84086869721403_1_alg».proof.Proof.Gen.Kernel.Frame
import proofs.«106607_j84086869721403_1_alg».proof.Proof.Gen.KernelIdeal
import proofs.«106607_j84086869721403_1_alg».proof.Proof.Gen.KernelIdeal.Skeleton
import proofs.«106607_j84086869721403_1_alg».proof.Proof.Gen.KernelIdeal.Launch
import proofs.«106607_j84086869721403_1_alg».proof.Proof.Gen.KernelIdeal.Points
import proofs.«106607_j84086869721403_1_alg».proof.Proof.Gen.KernelIdeal.Frame
import proofs.«106607_j84086869721403_1_alg».proof.Proof.Gen.ReferenceIdeal
import proofs.«106607_j84086869721403_1_alg».proof.Proof.Gen.ReferenceIdeal.Run
import proofs.«106607_j84086869721403_1_alg».proof.Proof.Gen.ReferenceIdeal.Read
import proofs.«106607_j84086869721403_1_alg».proof.Proof.Gen.Pre_finite_inputs
import Idealize.ShloMosaic.Adequacy
import Idealize.ShloMosaic.Init

import proofs.«106607_j84086869721403_1_alg».proof.Proof.KernelValue
import proofs.«106607_j84086869721403_1_alg».proof.Proof.RefValue

noncomputable section

namespace Cert.Proof

open Idealize.ShloMosaic Idealize.ShloMosaic.TcCoe Idealize.SL.Sem

/-- The word-level kernel program runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: it runs, and its arguments are never written. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on X and Y both programs end with the mean of the row minima in their result. -/
theorem algebraic : Cert.algebraic_KernelIdeal_ReferenceIdeal := by
  intro m ρ m' ρ' _ hagree
  refine ⟨fun c => fun _ => Cert.Spec.mean (Cert.KernelIdeal.Acc.X m c) (Cert.KernelIdeal.Acc.Y m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
